-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2 : Shape := ⟨2, ![50000, 2]⟩
abbrev S50000x128 : Shape := ⟨2, ![50000, 128]⟩
abbrev S800000 : Shape := ⟨1, ![800000]⟩
abbrev S261x128 : Shape := ⟨2, ![261, 128]⟩
abbrev S128 : Shape := ⟨1, ![128]⟩
abbrev S128x128 : Shape := ⟨2, ![128, 128]⟩
abbrev S_ : Shape := ⟨0, ![]⟩

class Facts : Prop where
  bcast_S_S50000x2 : S_.BroadcastsInDim S50000x2 (![] : Fin 0 → Fin S50000x2.rank)
  reducesTo_S50000x2_S_d0_1 : S50000x2.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S800000 : S_.BroadcastsInDim S800000 (![] : Fin 0 → Fin S800000.rank)
  reducesTo_S800000_S_d0 : S800000.ReducesTo [0] S_
  bcast_S_S261x128 : S_.BroadcastsInDim S261x128 (![] : Fin 0 → Fin S261x128.rank)
  reducesTo_S261x128_S_d0_1 : S261x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_arg7 : FVec F S128x128 .f32) (main_arg8 : FVec F S128 .f32) (main_v13 : IVec S_ 1) (main_v16 : IVec S261x128 1) : IVec S_ 1 :=
  let main_c_5 : IVec S_ 1 := constantI S_ 1 1#1
  let main_v17 : IVec S_ 1 := (fun x v => Host.reduce IntOp.andi x v reducesTo_S261x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x2 .f32) (main_arg1 : FVec F S50000x128 .f32) (main_arg2 : FVec F S800000 .f32) (main_arg3 : IVec S800000 32) (main_arg4 : IVec S800000 32) (main_arg5 : FVec F S261x128 .f32) (main_arg6 : FVec F S128 .f32) (main_arg7 : FVec F S128x128 .f32) (main_arg8 : FVec F S128 .f32) : IVec S_ 1 :=
  let main_v0 : FVec F S50000x2 .f32 := Host.absf main_arg0
  let main_cst : FVec F S_ .f32 := constant S_ .f32 0x7F800000#32
  let main_v1 : FVec F S50000x2 .f32 := broadcastInDim S50000x2 ![] bcast_S_S50000x2 main_cst
  let main_v2 : IVec S50000x2 1 := cmpf .olt main_v0 main_v1
  let main_c : IVec S_ 1 := constantI S_ 1 1#1
  let main_v3 : IVec S_ 1 := (fun x v => Host.reduce IntOp.andi x v reducesTo_S50000x2_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S800000 .f32 := Host.absf main_arg2
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S261x128 .f32 := Host.absf main_arg5
  let main_cst_4 : FVec F S_ .f32 := constant S_ .f32 0x7F800000#32
  let main_v15 : FVec F S261x128 .f32 := broadcastInDim S261x128 ![] bcast_S_S261x128 main_cst_4
  let main_v16 : IVec S261x128 1 := cmpf .olt main_v14 main_v15
  fn_part1 (F := F) main_arg6 main_arg7 main_arg8 main_v13 main_v16
-- ==== Kernel.lean ====
abbrev S50000x2 : Shape := ⟨2, ![50000, 2]⟩
abbrev S50000x128 : Shape := ⟨2, ![50000, 128]⟩
abbrev S800000 : Shape := ⟨1, ![800000]⟩
abbrev S261x128 : Shape := ⟨2, ![261, 128]⟩
abbrev S128 : Shape := ⟨1, ![128]⟩
abbrev S128x128 : Shape := ⟨2, ![128, 128]⟩
abbrev S_ : Shape := ⟨0, ![]⟩
abbrev S800000x1 : Shape := ⟨2, ![800000, 1]⟩
abbrev S800000x2 : Shape := ⟨2, ![800000, 2]⟩
abbrev S800000x128 : Shape := ⟨2, ![800000, 128]⟩
abbrev S2000x2 : Shape := ⟨2, ![2000, 2]⟩
abbrev S2000x128 : Shape := ⟨2, ![2000, 128]⟩
abbrev S2000x1 : Shape := ⟨2, ![2000, 1]⟩
abbrev S2000x261 : Shape := ⟨2, ![2000, 261]⟩
abbrev S1x128 : Shape := ⟨2, ![1, 128]⟩

abbrev nBuf : Space → Nat
  | .hbm => 47
  | .vmem => 16
  | .smem => 0
  | _ => 0

abbrev bufTy : (tb : Table) → Fin (tcTables nBuf tb) → BufTy
  | .hbm, ⟨0, _⟩ => ⟨S50000x2, .f32⟩
  | .hbm, ⟨1, _⟩ => ⟨S50000x128, .f32⟩
  | .hbm, ⟨2, _⟩ => ⟨S800000, .f32⟩
  | .hbm, ⟨3, _⟩ => ⟨S800000, .i32⟩
  | .hbm, ⟨4, _⟩ => ⟨S800000, .i32⟩
  | .hbm, ⟨5, _⟩ => ⟨S261x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x2, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x2, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S800000x1, .f32⟩
  | .hbm, ⟨46, _⟩ => ⟨S800000x128, .f32⟩
  | .local _ .vmem, ⟨0, _⟩ => ⟨S2000x2, .f32⟩
  | .local _ .vmem, ⟨1, _⟩ => ⟨S2000x2, .f32⟩
  | .local _ .vmem, ⟨2, _⟩ => ⟨S2000x128, .f32⟩
  | .local _ .vmem, ⟨3, _⟩ => ⟨S2000x128, .f32⟩
  | .local _ .vmem, ⟨4, _⟩ => ⟨S2000x2, .f32⟩
  | .local _ .vmem, ⟨5, _⟩ => ⟨S2000x2, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S261x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S2000x128, .f32⟩
  | .local _ .vmem, ⟨15, _⟩ => ⟨S2000x128, .f32⟩
  | _, _ => ⟨S50000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S261x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  concatenates_S2000x2_S2000x128_S2000x2_S2000x128_S2000x1_S2000x261_d1 : Shape.Concatenates [S2000x2, S2000x128, S2000x2, S2000x128, S2000x1] S2000x261 1
  bitsLt_bf16_f32 : FTy.bits .bf16 < FTy.bits .f32
  inb_S261x128_S261x128_0_0 : ∀ a, (![0, 0] : Fin 2 → Nat) a + S261x128.size a ≤ S261x128.size a
  h_S261x128 : 0 < S261x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  gather_S50000x2_S800000x1_S800000x2_1_0_n_n_0_1_12_wf : GatherDims.WF S50000x2 S800000x1 S800000x2 [1] [0] [] [0] [] 1 ![1, 2]
  gather_S50000x128_S800000x1_S800000x128_1_0_n_n_0_1_1128_wf : GatherDims.WF S50000x128 S800000x1 S800000x128 [1] [0] [] [0] [] 1 ![1, 128]
  dot_S2000x261_S261x128_S2000x128_1_0_0_1_n_n_wf : DotDims.WF S2000x261 S261x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x2.size a ≤ S800000x2.size a
  hwx0_0 : ∀ i : grid0.Coords, EltTy.bits .f32 = 32 ∨ (Rect.block (s := S800000x2) S2000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S800000x128.size a
  hwx0_1 : ∀ i : grid0.Coords, EltTy.bits .f32 = 32 ∨ (Rect.block (s := S800000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x2.size a ≤ S800000x2.size a
  hwx0_2 : ∀ i : grid0.Coords, EltTy.bits .f32 = 32 ∨ (Rect.block (s := S800000x2) S2000x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S800000x128.size a
  hwx0_3 : ∀ i : grid0.Coords, EltTy.bits .f32 = 32 ∨ (Rect.block (s := S800000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S800000x1.size a
  hwx0_4 : ∀ i : grid0.Coords, EltTy.bits .f32 = 32 ∨ (Rect.block (s := S800000x1) S2000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S261x128.size a ≤ S261x128.size a
  hwx0_5 : ∀ i : grid0.Coords, EltTy.bits .f32 = 32 ∨ (Rect.block (s := S261x128) S261x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S800000x128.size a
  hwx0_9 : ∀ i : grid0.Coords, EltTy.bits .f32 = 32 ∨ (Rect.block (s := S800000x128) S2000x128.size (cc0_transform_9 i) (hinb0_9 i)).WholeWords (EltTy.packing .f32)

variable [Facts₀]

def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S2000x261_S261x128_S2000x128_1_0_0_1_n_n : DotDims S2000x261 S261x128 S2000x128 where
  lhsContracting := [1]
  rhsContracting := [0]
  lhsNonContracting := [0]
  rhsNonContracting := [1]
  lhsBatch := []
  rhsBatch := []
  wf := dot_S2000x261_S261x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v6) S2000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S2000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S261x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x2 : Shape := ⟨2, ![50000, 2]⟩
abbrev S50000x128 : Shape := ⟨2, ![50000, 128]⟩
abbrev S800000 : Shape := ⟨1, ![800000]⟩
abbrev S261x128 : Shape := ⟨2, ![261, 128]⟩
abbrev S128 : Shape := ⟨1, ![128]⟩
abbrev S128x128 : Shape := ⟨2, ![128, 128]⟩
abbrev S_ : Shape := ⟨0, ![]⟩
abbrev S800000x1 : Shape := ⟨2, ![800000, 1]⟩
abbrev S800000x2 : Shape := ⟨2, ![800000, 2]⟩
abbrev S800000x128 : Shape := ⟨2, ![800000, 128]⟩
abbrev S800000x261 : Shape := ⟨2, ![800000, 261]⟩
abbrev S1x128 : Shape := ⟨2, ![1, 128]⟩

abbrev nBuf : Space → Nat
  | .hbm => 61
  | .vmem => 0
  | .smem => 0
  | _ => 0

abbrev bufTy : (tb : Table) → Fin (tcTables nBuf tb) → BufTy
  | .hbm, ⟨0, _⟩ => ⟨S50000x2, .f32⟩
  | .hbm, ⟨1, _⟩ => ⟨S50000x128, .f32⟩
  | .hbm, ⟨2, _⟩ => ⟨S800000, .f32⟩
  | .hbm, ⟨3, _⟩ => ⟨S800000, .i32⟩
  | .hbm, ⟨4, _⟩ => ⟨S800000, .i32⟩
  | .hbm, ⟨5, _⟩ => ⟨S261x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x2, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x2, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S800000x1, .f32⟩
  | .hbm, ⟨46, _⟩ => ⟨S800000x261, .f32⟩
  | .hbm, ⟨47, _⟩ => ⟨S800000x128, .f32⟩
  | .hbm, ⟨48, _⟩ => ⟨S1x128, .f32⟩
  | .hbm, ⟨49, _⟩ => ⟨S800000x128, .f32⟩
  | .hbm, ⟨50, _⟩ => ⟨S800000x128, .f32⟩
  | .hbm, ⟨51, _⟩ => ⟨S_, .f32⟩
  | .hbm, ⟨52, _⟩ => ⟨S800000x128, .f32⟩
  | .hbm, ⟨53, _⟩ => ⟨S800000x128, .f32⟩
  | .hbm, ⟨54, _⟩ => ⟨S800000x128, .f32⟩
  | .hbm, ⟨55, _⟩ => ⟨S1x128, .f32⟩
  | .hbm, ⟨56, _⟩ => ⟨S800000x128, .f32⟩
  | .hbm, ⟨57, _⟩ => ⟨S800000x128, .f32⟩
  | .hbm, ⟨58, _⟩ => ⟨S_, .f32⟩
  | .hbm, ⟨59, _⟩ => ⟨S800000x128, .f32⟩
  | .hbm, ⟨60, _⟩ => ⟨S800000x128, .f32⟩
  | _, _ => ⟨S50000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call0_cst : Ref sig .tc := ⟨.hbm, 51, rfl⟩
abbrev main_call0_v0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call1_cst : Ref sig .tc := ⟨.hbm, 58, rfl⟩
abbrev main_call1_v0 : Ref sig .tc := ⟨.hbm, 59, rfl⟩
abbrev main_v39 : Ref sig .tc := ⟨.hbm, 60, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x2_S800000x128_S800000x2_S800000x128_S800000x1_S800000x261_d1 : Shape.Concatenates [S800000x2, S800000x128, S800000x2, S800000x128, S800000x1] S800000x261 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  gather_S50000x2_S800000x1_S800000x2_1_0_n_n_0_1_12_wf : GatherDims.WF S50000x2 S800000x1 S800000x2 [1] [0] [] [0] [] 1 ![1, 2]
  gather_S50000x128_S800000x1_S800000x128_1_0_n_n_0_1_1128_wf : GatherDims.WF S50000x128 S800000x1 S800000x128 [1] [0] [] [0] [] 1 ![1, 128]
  dot_S800000x261_S261x128_S800000x128_1_0_0_1_n_n_wf : DotDims.WF S800000x261 S261x128 S800000x128 [1] [0] [0] [1] [] []
  dot_S800000x128_S128x128_S800000x128_1_0_0_1_n_n_wf : DotDims.WF S800000x128 S128x128 S800000x128 [1] [0] [0] [1] [] []

variable [Facts₀]

def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x261_S261x128_S800000x128_1_0_0_1_n_n : DotDims S800000x261 S261x128 S800000x128 where
  lhsContracting := [1]
  rhsContracting := [0]
  lhsNonContracting := [0]
  rhsNonContracting := [1]
  lhsBatch := []
  rhsBatch := []
  wf := dot_S800000x261_S261x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf

class Facts : Prop extends Facts₀ where

variable [Facts]
-- ==== Proof.EdgeMlp.lean ====
/-
  The edge MLP as mathematics, with no program in sight.

  Every edge e has a feature row of 261 numbers: the 2 features and the 128 hidden values of its
  destination node, the 2 features and the 128 hidden values of its source node, and its distance,
  laid side by side in that order. The row goes through two dense layers with a ReLU after each:

      hidden e k = max (∑ l, row e l · W1 l k + b1 k) 0          (k < 128)
      out    e j = max (∑ k, hidden e k · W2 k j + b2 j) 0        (j < 128)

  Here the row is read off five arrays by the column's position among the spans 2, 128, 2, 128, 1
  (edgeRow), a concatenation of five such arrays along the column axis is shown to be that row
  (concat5_apply), and the two layers are stated over an arbitrary family of rows (hidden, edgeOut).
  Everything is generic in the number N of rows, so that the same statements serve a block of rows
  and the whole array.
-/
import Idealize.ShloMosaic.Lib.Pipeline.Value
import Idealize.ShloMosaic.Lib.ValueIdx
import Idealize.ShloMosaic.PureOps.Ideal.Laws

noncomputable section

open Idealize.ShloMosaic Idealize.ShloMosaic.ValueIdx

namespace EdgeMlp

variable {α : Type}

/-- Column l of edge e's feature row: columns 0–1 come from x0, 2–129 from x1, 130–131 from x2,
    132–259 from x3, and column 260 is x4's single column. -/
def edgeRow {N : Nat} (x0 : (⟨2, ![N, 2]⟩ : Shape).Idx → α) (x1 : (⟨2, ![N, 128]⟩ : Shape).Idx → α)
    (x2 : (⟨2, ![N, 2]⟩ : Shape).Idx → α) (x3 : (⟨2, ![N, 128]⟩ : Shape).Idx → α)
    (x4 : (⟨2, ![N, 1]⟩ : Shape).Idx → α) (e : Fin N) (l : Fin 261) : α :=
  if h0 : l.val < 2 then x0 (ix2 e ⟨l.val, h0⟩)
  else if h1 : l.val < 130 then x1 (ix2 e ⟨l.val - 2, by omega⟩)
  else if h2 : l.val < 132 then x2 (ix2 e ⟨l.val - 130, by omega⟩)
  else if h3 : l.val < 260 then x3 (ix2 e ⟨l.val - 132, by omega⟩)
  else x4 (ix2 e (0 : Fin 1))

/-- Five arrays of widths 2, 128, 2, 128, 1 joined along the column axis, read at (e, l): the piece
    whose span holds l, at l less the widths before it — that is, the feature row. -/
theorem concat5_apply {N : Nat} (x0 : (⟨2, ![N, 2]⟩ : Shape).Idx → α) (x1 : (⟨2, ![N, 128]⟩ : Shape).Idx → α)
    (x2 : (⟨2, ![N, 2]⟩ : Shape).Idx → α) (x3 : (⟨2, ![N, 128]⟩ : Shape).Idx → α)
    (x4 : (⟨2, ![N, 1]⟩ : Shape).Idx → α)
    (h : Shape.Concatenates (([⟨⟨2, ![N, 2]⟩, x0⟩, ⟨⟨2, ![N, 128]⟩, x1⟩, ⟨⟨2, ![N, 2]⟩, x2⟩, ⟨⟨2, ![N, 128]⟩, x3⟩,
      ⟨⟨2, ![N, 1]⟩, x4⟩] : List ((s : Shape) × (s.Idx → α))).map (·.1)) ⟨2, ![N, 261]⟩ 1)
    (e : Fin N) (l : Fin 261) :
    concatenate ⟨2, ![N, 261]⟩ 1 [⟨⟨2, ![N, 2]⟩, x0⟩, ⟨⟨2, ![N, 128]⟩, x1⟩, ⟨⟨2, ![N, 2]⟩, x2⟩, ⟨⟨2, ![N, 128]⟩, x3⟩,
      ⟨⟨2, ![N, 1]⟩, x4⟩] h (ix2 e l) = edgeRow x0 x1 x2 x3 x4 e l := by
  unfold edgeRow
  split
  · rename_i h0
    refine concatenate_apply_piece (1 : Fin 2) _ h (ix2 e l) 0 (by simp) _ x0 rfl rfl 0 rfl (ix2 e ⟨l.val, h0⟩) ?_ ?_
    · intro b hb
      match b with
      | ⟨0, _⟩ => rfl
      | ⟨1, _⟩ => exact absurd rfl hb
    · show 0 + l.val = l.val
      omega
  split
  · rename_i h0 h1
    refine concatenate_apply_piece (1 : Fin 2) _ h (ix2 e l) 1 (by simp) _ x1 rfl rfl 2 rfl (ix2 e ⟨l.val - 2, by omega⟩) ?_ ?_
    · intro b hb
      match b with
      | ⟨0, _⟩ => rfl
      | ⟨1, _⟩ => exact absurd rfl hb
    · show 2 + (l.val - 2) = l.val
      omega
  split
  · rename_i h0 h1 h2
    refine concatenate_apply_piece (1 : Fin 2) _ h (ix2 e l) 2 (by simp) _ x2 rfl rfl 130 rfl (ix2 e ⟨l.val - 130, by omega⟩) ?_ ?_
    · intro b hb
      match b with
      | ⟨0, _⟩ => rfl
      | ⟨1, _⟩ => exact absurd rfl hb
    · show 130 + (l.val - 130) = l.val
      omega
  split
  · rename_i h0 h1 h2 h3
    refine concatenate_apply_piece (1 : Fin 2) _ h (ix2 e l) 3 (by simp) _ x3 rfl rfl 132 rfl (ix2 e ⟨l.val - 132, by omega⟩) ?_ ?_
    · intro b hb
      match b with
      | ⟨0, _⟩ => rfl
      | ⟨1, _⟩ => exact absurd rfl hb
    · show 132 + (l.val - 132) = l.val
      omega
  · rename_i h0 h1 h2 h3
    have hl : l.val < 261 := l.isLt
    refine concatenate_apply_piece (1 : Fin 2) _ h (ix2 e l) 4 (by simp) _ x4 rfl rfl 260 rfl (ix2 e (0 : Fin 1)) ?_ ?_
    · intro b hb
      match b with
      | ⟨0, _⟩ => rfl
      | ⟨1, _⟩ => exact absurd rfl hb
    · show 260 + 0 = l.val
      omega

/-- A row of a block is the same row of the array the block was cut from, when every one of the
    five blocks reads its array at a common row offset. -/
theorem edgeRow_congr {N M : Nat} (x0 : (⟨2, ![N, 2]⟩ : Shape).Idx → α) (x1 : (⟨2, ![N, 128]⟩ : Shape).Idx → α)
    (x2 : (⟨2, ![N, 2]⟩ : Shape).Idx → α) (x3 : (⟨2, ![N, 128]⟩ : Shape).Idx → α)
    (x4 : (⟨2, ![N, 1]⟩ : Shape).Idx → α)
    (a0 : (⟨2, ![M, 2]⟩ : Shape).Idx → α) (a1 : (⟨2, ![M, 128]⟩ : Shape).Idx → α)
    (a2 : (⟨2, ![M, 2]⟩ : Shape).Idx → α) (a3 : (⟨2, ![M, 128]⟩ : Shape).Idx → α)
    (a4 : (⟨2, ![M, 1]⟩ : Shape).Idx → α) (e : Fin N) (e' : Fin M)
    (h0 : ∀ c, x0 (ix2 e c) = a0 (ix2 e' c)) (h1 : ∀ c, x1 (ix2 e c) = a1 (ix2 e' c))
    (h2 : ∀ c, x2 (ix2 e c) = a2 (ix2 e' c)) (h3 : ∀ c, x3 (ix2 e c) = a3 (ix2 e' c))
    (h4 : ∀ c, x4 (ix2 e c) = a4 (ix2 e' c)) (l : Fin 261) :
    edgeRow x0 x1 x2 x3 x4 e l = edgeRow a0 a1 a2 a3 a4 e' l := by
  unfold edgeRow
  simp only [h0, h1, h2, h3, h4]

/-- The first layer: unit k of edge e's hidden activation. -/
def hidden {N : Nat} (X : Fin N → Fin 261 → EReal) (W1 : (⟨2, ![261, 128]⟩ : Shape).Idx → EReal)
    (b1 : (⟨1, ![128]⟩ : Shape).Idx → EReal) (e : Fin N) (k : Fin 128) : EReal :=
  max ((∑ l : Fin 261, X e l * W1 (ix2 l k)) + b1 (ix1 k)) 0

/-- The second layer: entry j of edge e's result. -/
def edgeOut {N : Nat} (X : Fin N → Fin 261 → EReal) (W1 : (⟨2, ![261, 128]⟩ : Shape).Idx → EReal)
    (b1 : (⟨1, ![128]⟩ : Shape).Idx → EReal) (W2 : (⟨2, ![128, 128]⟩ : Shape).Idx → EReal)
    (b2 : (⟨1, ![128]⟩ : Shape).Idx → EReal) (e : Fin N) (j : Fin 128) : EReal :=
  max ((∑ k : Fin 128, hidden X W1 b1 e k * W2 (ix2 k j)) + b2 (ix1 j)) 0

/-- The result depends on the rows only through edge e's own row. -/
theorem edgeOut_congr {N M : Nat} (X : Fin N → Fin 261 → EReal) (Y : Fin M → Fin 261 → EReal)
    (W1 : (⟨2, ![261, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (e : Fin N) (e' : Fin M) (h : ∀ l, X e l = Y e' l) (j : Fin 128) :
    edgeOut X W1 b1 W2 b2 e j = edgeOut Y W1 b1 W2 b2 e' j := by
  unfold edgeOut hidden
  simp only [h]

/-- The whole result array: entry (e, j) is the MLP of edge e's row, the row read off the five
    per-edge arrays. -/
def result (a0 : (⟨2, ![800000, 2]⟩ : Shape).Idx → EReal) (a1 : (⟨2, ![800000, 128]⟩ : Shape).Idx → EReal)
    (a2 : (⟨2, ![800000, 2]⟩ : Shape).Idx → EReal) (a3 : (⟨2, ![800000, 128]⟩ : Shape).Idx → EReal)
    (a4 : (⟨2, ![800000, 1]⟩ : Shape).Idx → EReal) (W1 : (⟨2, ![261, 128]⟩ : Shape).Idx → EReal)
    (b1 : (⟨1, ![128]⟩ : Shape).Idx → EReal) (W2 : (⟨2, ![128, 128]⟩ : Shape).Idx → EReal)
    (b2 : (⟨1, ![128]⟩ : Shape).Idx → EReal) : (⟨2, ![800000, 128]⟩ : Shape).Idx → EReal :=
  fun i => edgeOut (edgeRow a0 a1 a2 a3 a4) W1 b1 W2 b2 (i 0) (i 1)

end EdgeMlp

end
-- ==== Proof.BodyValue.lean ====
/-
  What one grid point's body computes, entry by entry.

  The body loads the point's five blocks of per-edge data (2000 rows each), the two weight matrices
  and the two bias vectors, joins the five blocks into a 2000 × 261 matrix, and stores

      max ((max (X · W1 + b1) 0) · W2 + b2) 0

  where b1 and b2 are added to every row. Read over the extended reals, the narrowings to bf16 in
  front of the two matrix products change nothing, and a matrix product into a zero accumulator is
  the plain sum over the contracted axis. So entry (p, c) of the stored block is the two-layer
  formula EdgeMlp.edgeOut at row p of the joined blocks: pay_apply. The lemmas before it read one
  operation each at an index: the two products (mm1_apply, mm2_apply, each from the four facts that
  say which operand coordinate a product's row, column and contraction index land on), a bias
  vector spread over the rows (bias_apply), and the zero word (zero_word).
-/
import proofs.«124602_j5403068859067_1_alg».proof.Proof.Gen.KernelIdeal.Skeleton
import proofs.«124602_j5403068859067_1_alg».proof.Proof.EdgeMlp
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx

theorem mm1_lhs_0 (i : S2000x128.Idx) (q : dot_S2000x261_S261x128_S2000x128_1_0_0_1_n_n.contr.Idx) :
    (dot_S2000x261_S261x128_S2000x128_1_0_0_1_n_n.lhsIdx i q 0).val = (i 0).val := by
  unfold DotDims.lhsIdx
  rw [dif_neg (show ¬(0 : Fin S2000x261.rank) ∈ dot_S2000x261_S261x128_S2000x128_1_0_0_1_n_n.lhsBatch by decide), dif_pos (show (0 : Fin S2000x261.rank) ∈ dot_S2000x261_S261x128_S2000x128_1_0_0_1_n_n.lhsNonContracting by decide)]
  rfl
theorem mm1_lhs_1 (i : S2000x128.Idx) (q : dot_S2000x261_S261x128_S2000x128_1_0_0_1_n_n.contr.Idx) :
    (dot_S2000x261_S261x128_S2000x128_1_0_0_1_n_n.lhsIdx i q 1).val = (q ⟨0, by decide⟩).val :=
  dot_S2000x261_S261x128_S2000x128_1_0_0_1_n_n.lhsIdx_val_of_single rfl i q
theorem mm1_rhs_0 (i : S2000x128.Idx) (q : dot_S2000x261_S261x128_S2000x128_1_0_0_1_n_n.contr.Idx) :
    (dot_S2000x261_S261x128_S2000x128_1_0_0_1_n_n.rhsIdx i q 0).val = (q ⟨0, by decide⟩).val :=
  dot_S2000x261_S261x128_S2000x128_1_0_0_1_n_n.rhsIdx_val_of_single rfl i q
theorem mm1_rhs_1 (i : S2000x128.Idx) (q : dot_S2000x261_S261x128_S2000x128_1_0_0_1_n_n.contr.Idx) :
    (dot_S2000x261_S261x128_S2000x128_1_0_0_1_n_n.rhsIdx i q 1).val = (i 1).val := by
  unfold DotDims.rhsIdx
  rw [dif_neg (show ¬(1 : Fin S261x128.rank) ∈ dot_S2000x261_S261x128_S2000x128_1_0_0_1_n_n.rhsBatch by decide), dif_pos (show (1 : Fin S261x128.rank) ∈ dot_S2000x261_S261x128_S2000x128_1_0_0_1_n_n.rhsNonContracting by decide)]
  rfl

theorem mm1_apply {φ₁ φ₂ : FTy} (a : FVec Ideal S2000x261 φ₁) (b : FVec Ideal S261x128 φ₂) (p : Fin 2000) (c : Fin 128) :
    matmul dot_S2000x261_S261x128_S2000x128_1_0_0_1_n_n none a b (constant (F := Ideal) S2000x128 .f32 0x00000000#32) (ix2 p c)
      = ∑ k : Fin 261, a (ix2 p k) * b (ix2 k c) := by
  refine (Ideal.matmul_constant_zero_apply _ none a b (ix2 p c)).trans ?_
  rw [← Equiv.sum_comp (contrEquiv1 dot_S2000x261_S261x128_S2000x128_1_0_0_1_n_n 261 rfl rfl).symm]
  refine Finset.sum_congr rfl fun k _ => ?_
  have hk := contrEquiv1_symm_val dot_S2000x261_S261x128_S2000x128_1_0_0_1_n_n 261 rfl rfl k
  have el : dot_S2000x261_S261x128_S2000x128_1_0_0_1_n_n.lhsIdx (ix2 p c) ((contrEquiv1 dot_S2000x261_S261x128_S2000x128_1_0_0_1_n_n 261 rfl rfl).symm k) = ix2 p k := funext fun ax => Fin.ext (by
    match ax with
    | ⟨0, _⟩ => exact mm1_lhs_0 _ _
    | ⟨1, _⟩ => exact (mm1_lhs_1 _ _).trans hk)
  have er : dot_S2000x261_S261x128_S2000x128_1_0_0_1_n_n.rhsIdx (ix2 p c) ((contrEquiv1 dot_S2000x261_S261x128_S2000x128_1_0_0_1_n_n 261 rfl rfl).symm k) = ix2 k c := funext fun ax => Fin.ext (by
    match ax with
    | ⟨0, _⟩ => exact (mm1_rhs_0 _ _).trans hk
    | ⟨1, _⟩ => exact mm1_rhs_1 _ _)
  rw [el, er]

theorem mm2_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mm2_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem mm2_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem mm2_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem mm2_apply {φ₁ φ₂ : FTy} (a : FVec Ideal S2000x128 φ₁) (b : FVec Ideal S128x128 φ₂) (p : Fin 2000) (c : Fin 128) :
    matmul dot_S2000x128_S128x128_S2000x128_1_0_0_1_n_n none a b (constant (F := Ideal) S2000x128 .f32 0x00000000#32) (ix2 p c)
      = ∑ k : Fin 128, a (ix2 p k) * b (ix2 k c) := by
  refine (Ideal.matmul_constant_zero_apply _ none a b (ix2 p c)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p c) ((contrEquiv1 dot_S2000x128_S128x128_S2000x128_1_0_0_1_n_n 128 rfl rfl).symm k) = ix2 p k := funext fun ax => Fin.ext (by
    match ax with
    | ⟨0, _⟩ => exact mm2_lhs_0 _ _
    | ⟨1, _⟩ => exact (mm2_lhs_1 _ _).trans hk)
  have er : dot_S2000x128_S128x128_S2000x128_1_0_0_1_n_n.rhsIdx (ix2 p c) ((contrEquiv1 dot_S2000x128_S128x128_S2000x128_1_0_0_1_n_n 128 rfl rfl).symm k) = ix2 k c := funext fun ax => Fin.ext (by
    match ax with
    | ⟨0, _⟩ => exact (mm2_rhs_0 _ _).trans hk
    | ⟨1, _⟩ => exact mm2_rhs_1 _ _)
  rw [el, er]

theorem zero_word : (FloatOps.ofBits (F := Ideal) .f32 0x00000000#32) = (0 : EReal) := by
  show Ideal.ofBits .f32 0x00000000#32 = 0
  exact Ideal.ofBits_zero_f32

theorem bias_apply (b : Vec Ideal S128 .f32) (p : Fin 2000) (c : Fin 128) :
    broadcastTo S2000x128 (shapeCast S1x128 b shapeCasts_S128_S1x128) broadcasts_S1x128_S2000x128 (ix2 p c) = b (ix1 c) := by
  rw [broadcastTo_1b_ab_apply, shapeCast_a_1a_apply]

theorem pay_apply (v0 : Vec Ideal S2000x2 .f32) (v2 : Vec Ideal S2000x128 .f32) (v4 : Vec Ideal S2000x2 .f32)
    (v6 : Vec Ideal S2000x128 .f32) (v8 : Vec Ideal S2000x1 .f32) (v12 : Vec Ideal S261x128 .f32)
    (v15 : Vec Ideal S128 .f32) (v22 : Vec Ideal S128x128 .f32) (v25 : Vec Ideal S128 .f32)
    (p : Fin 2000) (c : Fin 128) :
    k0_pay1 (F := Ideal) v0 v2 v4 v6 v8 v12 v15 v22 v25 (ix2 p c)
      = EdgeMlp.edgeOut (EdgeMlp.edgeRow v0 v2 v4 v6 v8) v12 v15 v22 v25 p c := by
  unfold k0_pay1
  rw [maximumf_apply, addf_apply, broadcast_apply, bias_apply, mm2_apply]
  unfold EdgeMlp.edgeOut EdgeMlp.hidden
  simp only [truncf_apply, maximumf_apply, addf_apply, broadcast_apply, broadcastTo_1b_ab_apply, shapeCast_a_1a_apply,
    mm1_apply, shapeCast_self, EdgeMlp.concat5_apply, zero_word]

end Cert.KernelIdeal.BodyValue

end
-- ==== Proof.ArrayValue.lean ====
/-
  From blocks to the array: what the kernel's output holds after the run.

  The grid has 400 points. At point t every per-edge input window holds rows 2000·t … 2000·t + 1999
  of its array (block index (t, 0), decided over the grid), the four parameter windows hold their
  whole arrays (block index zero), and the output window writes back rows 2000·t … 2000·t + 1999 of
  the output. The body's stored block at (p, c) is the two-layer formula at row p of the joined
  blocks (BodyValue.pay_apply); row p of a block is row 2000·t + p of its array (blk0_apply …
  blk4_apply), and the formula for an edge depends on that edge's row alone (EdgeMlp.edgeOut_congr,
  edgeRow_congr). So what point t writes back is block t of ONE array, EdgeMlp.result of the arrays
  the region found: flushed9_eq. Row r of the output lies in the block of point r / 2000, so the 400
  blocks cover the output (cover9), and the output after the run is that array (final9, run).
-/
import proofs.«124602_j5403068859067_1_alg».proof.Proof.Gen.KernelIdeal.Value
import proofs.«124602_j5403068859067_1_alg».proof.Proof.BodyValue
import proofs.«124602_j5403068859067_1_alg».proof.Proof.EdgeMlp
import Idealize.ShloMosaic.Lib.Pipeline.Value
import Idealize.ShloMosaic.Lib.ValueIdx

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

theorem idx_in0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem idx_in1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem idx_in2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

theorem idx_in3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem idx_in4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

theorem idx_in9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

theorem idx_w5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_w6 : ∀ t : Fin cfg0.N, win0_6.index t (0 : Fin 1) = 0 :=
  (by decide +kernel : ∀ t : Fin grid0.N, win0_6.index t (0 : Fin 1) = 0)
theorem idx_w7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_w8 : ∀ t : Fin cfg0.N, win0_8.index t (0 : Fin 1) = 0 :=
  (by decide +kernel : ∀ t : Fin grid0.N, win0_8.index t (0 : Fin 1) = 0)

/-- Row p of input window 0's block at point t is row 2000·t + p of its array. -/
theorem blk0_apply (c : Dev nD) (t : Fin cfg0.N) (p : Fin 2000) (x : Fin 2) (hp : t.val * 2000 + p.val < 800000) :
    (iblk m c 0 t : Vec Ideal S2000x2 .f32) (ix2 p x) = (V m c main_v6 : Vec Ideal S800000x2 .f32) (ix2 ⟨t.val * 2000 + p.val, hp⟩ x) := by
  obtain ⟨e0, e1⟩ := idx_in0 t
  show V m c main_v6 (((cfg0.win 0).blk t).view.emb (ix2 p x)) = _
  refine congrArg (V m c main_v6) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 2 + 1 * x.val = x.val; rw [e1]; omega

/-- Row p of input window 1's block at point t is row 2000·t + p of its array. -/
theorem blk1_apply (c : Dev nD) (t : Fin cfg0.N) (p : Fin 2000) (x : Fin 128) (hp : t.val * 2000 + p.val < 800000) :
    (iblk m c 1 t : Vec Ideal S2000x128 .f32) (ix2 p x) = (V m c main_v13 : Vec Ideal S800000x128 .f32) (ix2 ⟨t.val * 2000 + p.val, hp⟩ x) := by
  obtain ⟨e0, e1⟩ := idx_in1 t
  show V m c main_v13 (((cfg0.win 1).blk t).view.emb (ix2 p x)) = _
  refine congrArg (V m c main_v13) (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 128 + 1 * x.val = x.val; rw [e1]; omega

/-- Row p of input window 2's block at point t is row 2000·t + p of its array. -/
theorem blk2_apply (c : Dev nD) (t : Fin cfg0.N) (p : Fin 2000) (x : Fin 2) (hp : t.val * 2000 + p.val < 800000) :
    (iblk m c 2 t : Vec Ideal S2000x2 .f32) (ix2 p x) = (V m c main_v20 : Vec Ideal S800000x2 .f32) (ix2 ⟨t.val * 2000 + p.val, hp⟩ x) := by
  obtain ⟨e0, e1⟩ := idx_in2 t
  show V m c main_v20 (((cfg0.win 2).blk t).view.emb (ix2 p x)) = _
  refine congrArg (V m c main_v20) (funext fun a => Fin.ext ?_)
  match a with
  | ⟨0, _⟩ => show win0_2.index t (0 : Fin 2) * 2000 + 1 * p.val = t.val * 2000 + p.val; rw [e0]; omega
  | ⟨1, _⟩ => show win0_2.index t (1 : Fin 2) * 2 + 1 * x.val = x.val; rw [e1]; omega

/-- Row p of input window 3's block at point t is row 2000·t + p of its array. -/
theorem blk3_apply (c : Dev nD) (t : Fin cfg0.N) (p : Fin 2000) (x : Fin 128) (hp : t.val * 2000 + p.val < 800000) :
    (iblk m c 3 t : Vec Ideal S2000x128 .f32) (ix2 p x) = (V m c main_v27 : Vec Ideal S800000x128 .f32) (ix2 ⟨t.val * 2000 + p.val, hp⟩ x) := by
  obtain ⟨e0, e1⟩ := idx_in3 t
  show V m c main_v27 (((cfg0.win 3).blk t).view.emb (ix2 p x)) = _
  refine congrArg (V m c main_v27) (funext fun a => Fin.ext ?_)
  match a with
  | ⟨0, _⟩ => show win0_3.index t (0 : Fin 2) * 2000 + 1 * p.val = t.val * 2000 + p.val; rw [e0]; omega
  | ⟨1, _⟩ => show win0_3.index t (1 : Fin 2) * 128 + 1 * x.val = x.val; rw [e1]; omega

/-- Row p of input window 4's block at point t is row 2000·t + p of its array. -/
theorem blk4_apply (c : Dev nD) (t : Fin cfg0.N) (p : Fin 2000) (x : Fin 1) (hp : t.val * 2000 + p.val < 800000) :
    (iblk m c 4 t : Vec Ideal S2000x1 .f32) (ix2 p x) = (V m c main_v28 : Vec Ideal S800000x1 .f32) (ix2 ⟨t.val * 2000 + p.val, hp⟩ x) := by
  obtain ⟨e0, e1⟩ := idx_in4 t
  show V m c main_v28 (((cfg0.win 4).blk t).view.emb (ix2 p x)) = _
  refine congrArg (V m c main_v28) (funext fun a => Fin.ext ?_)
  match a with
  | ⟨0, _⟩ => show win0_4.index t (0 : Fin 2) * 2000 + 1 * p.val = t.val * 2000 + p.val; rw [e0]; omega
  | ⟨1, _⟩ => show win0_4.index t (1 : Fin 2) * 1 + 1 * x.val = x.val; rw [e1]; omega

theorem blk5_eq (c : Dev nD) (t : Fin cfg0.N) : (iblk m c 5 t : Vec Ideal S261x128 .f32) = V m c main_arg5 := by
  obtain ⟨e0, e1⟩ := idx_w5 t
  funext y
  show V m c main_arg5 (((cfg0.win 5).blk t).view.emb y) = _
  refine congrArg (V m c main_arg5) (funext fun a => Fin.ext ?_)
  match a with
  | ⟨0, _⟩ => show win0_5.index t (0 : Fin 2) * 261 + 1 * (y 0).val = (y 0).val; rw [e0]; omega
  | ⟨1, _⟩ => show win0_5.index t (1 : Fin 2) * 128 + 1 * (y 1).val = (y 1).val; rw [e1]; omega

theorem blk6_eq (c : Dev nD) (t : Fin cfg0.N) : (iblk m c 6 t : Vec Ideal S128 .f32) = V m c main_arg6 := by
  have e0 := idx_w6 t
  funext y
  show V m c main_arg6 (((cfg0.win 6).blk t).view.emb y) = _
  refine congrArg (V m c main_arg6) (funext fun a => Fin.ext ?_)
  match a with
  | ⟨0, _⟩ => show win0_6.index t (0 : Fin 1) * 128 + 1 * (y 0).val = (y 0).val; rw [e0]; omega

theorem blk7_eq (c : Dev nD) (t : Fin cfg0.N) : (iblk m c 7 t : Vec Ideal S128x128 .f32) = V m c main_arg7 := by
  obtain ⟨e0, e1⟩ := idx_w7 t
  funext y
  show V m c main_arg7 (((cfg0.win 7).blk t).view.emb y) = _
  refine congrArg (V m c main_arg7) (funext fun a => Fin.ext ?_)
  match a with
  | ⟨0, _⟩ => show win0_7.index t (0 : Fin 2) * 128 + 1 * (y 0).val = (y 0).val; rw [e0]; omega
  | ⟨1, _⟩ => show win0_7.index t (1 : Fin 2) * 128 + 1 * (y 1).val = (y 1).val; rw [e1]; omega

theorem blk8_eq (c : Dev nD) (t : Fin cfg0.N) : (iblk m c 8 t : Vec Ideal S128 .f32) = V m c main_arg8 := by
  have e0 := idx_w8 t
  funext y
  show V m c main_arg8 (((cfg0.win 8).blk t).view.emb y) = _
  refine congrArg (V m c main_arg8) (funext fun a => Fin.ext ?_)
  match a with
  | ⟨0, _⟩ => show win0_8.index t (0 : Fin 1) * 128 + 1 * (y 0).val = (y 0).val; rw [e0]; omega

/-- The five per-edge arrays and the four parameter arrays as the region finds them. -/
abbrev entryResult (c : Dev nD) : Vec Ideal S800000x128 .f32 :=
  EdgeMlp.result (V m c main_v6) (V m c main_v13) (V m c main_v20) (V m c main_v27) (V m c main_v28)
    (V m c main_arg5) (V m c main_arg6) (V m c main_arg7) (V m c main_arg8)

/-- Where row p, column q of point t's output block sits in the output array. -/
theorem out_emb (t : Fin cfg0.N) (p : Fin 2000) (q : Fin 128) (hp : t.val * 2000 + p.val < 800000) :
    ((cfg0.win 9).blk t).view.emb (ix2 p q) = (ix2 ⟨t.val * 2000 + p.val, hp⟩ q : S800000x128.Idx) := by
  obtain ⟨e0, e1⟩ := idx_in9 t
  refine funext fun a => Fin.ext ?_
  match a with
  | ⟨0, _⟩ => show win0_9.index t (0 : Fin 2) * 2000 + 1 * p.val = t.val * 2000 + p.val; rw [e0]; omega
  | ⟨1, _⟩ => show win0_9.index t (1 : Fin 2) * 128 + 1 * q.val = q.val; rw [e1]; omega

/-- WHAT POINT t WRITES BACK is block t of the result array. -/
theorem flushed9_eq (c : Dev nD) (t : Fin cfg0.N) :
    (dats m 0 c).flushed 9 t = ((cfg0.win 9).blk t).view.read (Elt Ideal) (entryResult m c) := by
  rw [Cert.KernelIdeal.Value.flushed9]
  unfold out0_9
  rw [View.canon_unit_zero hz2]
  simp only [View.ld_unit_zero (S := S2000x2) hz2, View.ld_unit_zero (S := S2000x128) hz2, View.ld_unit_zero (S := S2000x1) hz2,
    View.ld_unit_zero (S := S261x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  have ht : t.val < 400 := t.isLt
  have hp : t.val * 2000 + p.val < 800000 := by have := p.isLt; omega
  show k0_pay1 (F := Ideal) (iblk m c 0 t) (iblk m c 1 t) (iblk m c 2 t) (iblk m c 3 t) (iblk m c 4 t) (iblk m c 5 t) (iblk m c 6 t) (iblk m c 7 t) (iblk m c 8 t) (ix2 p q)
    = entryResult m c (((cfg0.win 9).blk t).view.emb (ix2 p q))
  rw [out_emb t p q hp]
  refine (Cert.KernelIdeal.BodyValue.pay_apply (iblk m c 0 t) (iblk m c 1 t) (iblk m c 2 t) (iblk m c 3 t) (iblk m c 4 t) (iblk m c 5 t) (iblk m c 6 t) (iblk m c 7 t) (iblk m c 8 t) p q).trans ?_
  rw [blk5_eq m c t, blk6_eq m c t, blk7_eq m c t, blk8_eq m c t]
  exact EdgeMlp.edgeOut_congr _ _ _ _ _ _ p ⟨t.val * 2000 + p.val, hp⟩
    (EdgeMlp.edgeRow_congr _ _ _ _ _ _ _ _ _ _ p ⟨t.val * 2000 + p.val, hp⟩
      (fun x => blk0_apply m c t p x hp) (fun x => blk1_apply m c t p x hp) (fun x => blk2_apply m c t p x hp)
      (fun x => blk3_apply m c t p x hp) (fun x => blk4_apply m c t p x hp)) q

/-- An index of the output array is in point t's block iff each coordinate is in the block's range on its axis. -/
theorem mem_blk9 (t : Fin cfg0.N) (i : S800000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v29).slice (win0_9.rect t)).set ↔ _
  rw [View.set_slice_whole, Rect.mem_set_unit]
  exact Iff.rfl

/-- Every row of the output lies in the block of the point its row number divided by 2000 names. -/
theorem cover9 (i : S800000x128.Idx) :
    ∃ t : Fin cfg0.N, (cfg0.win 9).flush t = true ∧ i ∈ ((cfg0.win 9).blk t).view.set := by
  have hi0 : (i 0).val < 800000 := (i 0).isLt
  have hi1 : (i 1).val < 128 := (i 1).isLt
  have hN : cfg0.N = 400 := N_0
  have hlt : (i 0).val / 2000 < cfg0.N := by rw [hN]; omega
  obtain ⟨e0, e1⟩ := idx_in9 ⟨(i 0).val / 2000, hlt⟩
  refine ⟨⟨(i 0).val / 2000, hlt⟩, flush0_9 _, ?_⟩
  rw [mem_blk9]
  intro a
  match a with
  | ⟨0, _⟩ =>
    show win0_9.index ⟨(i 0).val / 2000, hlt⟩ (0 : Fin 2) * 2000 ≤ (i 0).val ∧ (i 0).val < win0_9.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_9.index ⟨(i 0).val / 2000, hlt⟩ (1 : Fin 2) * 128 ≤ (i 1).val ∧ (i 1).val < win0_9.index ⟨(i 0).val / 2000, hlt⟩ (1 : Fin 2) * 128 + 128
    rw [e1]; omega

/-- THE OUTPUT ARRAY after the run is the result array of the arrays the region found. -/
theorem final9 (c : Dev nD) : (dats m 0 c).arrAt 9 cfg0.N = entryResult m c :=
  (dats m 0 c).arrAt_eq_of_cover 9 (entryResult m c) (fun t _ => flushed9_eq m c t) cover9

/-- The kernel's run, re-posted: the output at the result array, the arguments unchanged. -/
theorem run : θ_run defs (onTc (τ := τ) (main (F := Ideal))) ⟨m, fun _ => 0, ρ⟩ fun r => ∀ c : Dev nD,
      r.2.mem ((c : Thread nD τ).loc main_v29) = entryResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c), (h c).2⟩)
    (Cert.KernelIdeal.Value.run_blocks m ρ)

end Cert.KernelIdeal.ArrayValue

end
-- ==== Proof.RefValue.lean ====
/-
  The reference, entry by entry.

  The reference gathers the destination and source rows of the two node tables, joins them with
  the distance column into an 800000 × 261 matrix X, and returns max ((max (X · W1 + b1) 0) · W2 + b2) 0.
  Over the extended reals its matrix products are plain sums over the contracted axis, its biases are
  rows repeated down the matrix, and its ReLU is max with zero. Reading its last stage at (p, c)
  one operation at a time, and the joined matrix at (p, l) as the feature row of edge p, gives
  exactly EdgeMlp.result of the five per-edge arrays the earlier stages produce: ref_eq. The small
  lemmas before it say where each operation looks: the products at (p, k) and (k, c), the biases
  at k; and that the zero word is the number zero.
-/
import proofs.«124602_j5403068859067_1_alg».proof.Proof.Gen.ReferenceIdeal.Read
import proofs.«124602_j5403068859067_1_alg».proof.Proof.EdgeMlp
import Idealize.ShloMosaic.Lib.ValueLayout
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

theorem zero_word : (FloatOps.ofBits (F := Ideal) .f32 0x00000000#32) = (0 : EReal) := by
  show Ideal.ofBits .f32 0x00000000#32 = 0
  exact Ideal.ofBits_zero_f32

theorem l35 (p : Fin 800000) (c : Fin 128) (k : Fin 128) : lidx_main_v35 (ix2 p c) k = ix2 p k :=
  funext fun a => Fin.ext (by match a with | ⟨0, _⟩ => rfl | ⟨1, _⟩ => rfl)
theorem r35 (p : Fin 800000) (c : Fin 128) (k : Fin 128) : ridx_main_v35 (ix2 p c) k = ix2 k c :=
  funext fun a => Fin.ext (by match a with | ⟨0, _⟩ => rfl | ⟨1, _⟩ => rfl)
theorem l30 (p : Fin 800000) (k : Fin 128) (l : Fin 261) : lidx_main_v30 (ix2 p k) l = ix2 p l :=
  funext fun a => Fin.ext (by match a with | ⟨0, _⟩ => rfl | ⟨1, _⟩ => rfl)
theorem r30 (p : Fin 800000) (k : Fin 128) (l : Fin 261) : ridx_main_v30 (ix2 p k) l = ix2 l k :=
  funext fun a => Fin.ext (by match a with | ⟨0, _⟩ => rfl | ⟨1, _⟩ => rfl)
theorem b32 (p : Fin 800000) (k : Fin 128) : idx_main_v31 (idx_main_v32 (ix2 p k)) = ix1 k :=
  funext fun a => Fin.ext (by match a with | ⟨0, _⟩ => rfl)
theorem b37 (p : Fin 800000) (k : Fin 128) : idx_main_v36 (idx_main_v37 (ix2 p k)) = ix1 k :=
  funext fun a => Fin.ext (by match a with | ⟨0, _⟩ => rfl)

theorem ref_eq (x0 : (⟨S50000x2, .f32⟩ : BufTy).Contents (Elt Ideal)) (x1 : (⟨S50000x128, .f32⟩ : BufTy).Contents (Elt Ideal))
    (x2 : (⟨S800000, .f32⟩ : BufTy).Contents (Elt Ideal)) (x3 x4 : (⟨S800000, .i32⟩ : BufTy).Contents (Elt Ideal))
    (x5 : (⟨S261x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) :
    val_main_v39 (F := Ideal) x0 x1 x2 x3 x4 x5 x6 x7 x8
      = EdgeMlp.result (val_main_v6 (F := Ideal) x0 x4) (val_main_v13 (F := Ideal) x1 x4) (val_main_v20 (F := Ideal) x0 x3)
          (val_main_v27 (F := Ideal) x1 x3) (val_main_v28 (F := Ideal) x2) x5 x6 x7 x8 := by
  funext i
  obtain ⟨p, c, rfl⟩ : ∃ (p : Fin 800000) (c : Fin 128), i = ix2 p c := ⟨i 0, i 1, eq_ix2 i⟩
  unfold EdgeMlp.result EdgeMlp.edgeOut EdgeMlp.hidden
  rw [val_main_v39_apply, val_main_v38_apply, val_main_v35_apply, val_main_v37_apply, val_main_v36_apply,
    val_main_call1_v0_apply, val_main_call1_cst_apply]
  simp only [val_main_v34_apply, val_main_v33_apply, val_main_v30_apply, val_main_v32_apply, val_main_v31_apply,
    val_main_call0_v0_apply, val_main_call0_cst_apply, l35, r35, l30, r30, b32, b37, zero_word,
    Ideal.maximumf_def, Ideal.addf_def]
  simp only [val_main_v29, EdgeMlp.concat5_apply]

end Cert.ReferenceIdeal.RefValue

end
-- ==== Proof.EntryValue.lean ====
/-
  The arrays the kernel's region finds.

  Before the region the program wraps negative node indices round (i + 50000 where i < 0), gathers the
  destination and source rows of the two node tables, and makes the distances a column. These are,
  operation for operation, the first stages of the reference; each lemma here says that one of the
  five per-edge arrays, as the region finds it, is the reference's stage of the same arguments.
-/
import proofs.«124602_j5403068859067_1_alg».proof.Proof.Gen.KernelIdeal.Frame
import proofs.«124602_j5403068859067_1_alg».proof.Proof.Gen.ReferenceIdeal.Read
import Idealize.ShloMosaic.Lib.StableHlo.Run

noncomputable section

namespace Cert.KernelIdeal.EntryValue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

theorem V_v6 (c : Dev nD) : (V m c main_v6 : S800000x2.Idx → EReal)
    = Cert.ReferenceIdeal.Read.val_main_v6 (F := Ideal) (m ((c : Thread nD τ).loc main_arg0)) (m ((c : Thread nD τ).loc main_arg4)) := by
  dsimp only [Gen.V, Gen.hostOps0]
  after_results_simp <;> rfl

theorem V_v13 (c : Dev nD) : (V m c main_v13 : S800000x128.Idx → EReal)
    = Cert.ReferenceIdeal.Read.val_main_v13 (F := Ideal) (m ((c : Thread nD τ).loc main_arg1)) (m ((c : Thread nD τ).loc main_arg4)) := by
  dsimp only [Gen.V, Gen.hostOps0]
  after_results_simp <;> rfl

theorem V_v20 (c : Dev nD) : (V m c main_v20 : S800000x2.Idx → EReal)
    = Cert.ReferenceIdeal.Read.val_main_v20 (F := Ideal) (m ((c : Thread nD τ).loc main_arg0)) (m ((c : Thread nD τ).loc main_arg3)) := by
  dsimp only [Gen.V, Gen.hostOps0]
  after_results_simp <;> rfl

theorem V_v27 (c : Dev nD) : (V m c main_v27 : S800000x128.Idx → EReal)
    = Cert.ReferenceIdeal.Read.val_main_v27 (F := Ideal) (m ((c : Thread nD τ).loc main_arg1)) (m ((c : Thread nD τ).loc main_arg3)) := by
  dsimp only [Gen.V, Gen.hostOps0]
  after_results_simp <;> rfl

theorem V_v28 (c : Dev nD) : (V m c main_v28 : S800000x1.Idx → EReal)
    = Cert.ReferenceIdeal.Read.val_main_v28 (F := Ideal) (m ((c : Thread nD τ).loc main_arg2)) := by
  dsimp only [Gen.V, Gen.hostOps0]
  after_results_simp <;> rfl

end Cert.KernelIdeal.EntryValue

end
-- ==== Proof.lean ====
/-
  The edge MLP kernel against its reference.

  Both programs first wrap negative node indices round, gather the destination and source rows of
  the two node tables and make the distances a column: the same host operations, so the two see
  the same five per-edge arrays (EntryValue). The kernel then walks the 800000 edges in 400 blocks
  of 2000; on each block it joins the five pieces into 261 columns and applies two dense layers,
  each followed by max with zero, narrowing to bf16 in front of each matrix product. The reference
  joins the whole arrays and applies the same two layers in f32. Over the extended reals a
  narrowing is the identity and a matrix product is the sum over the contracted axis, in either
  program; so entry (e, j) of either result is

      max (∑ k, max (∑ l, row e l · W1 l k + b1 k) 0 · W2 k j + b2 j) 0,

  row e the joined feature row of edge e (EdgeMlp). The kernel's output is that array because each
  block the body stores is the formula on the block's rows and the 400 blocks cover the output
  (BodyValue, ArrayValue); the reference's result is that array by reading its stages at an index
  (RefValue). No sum is re-ordered and nothing is distributed or cancelled, so the inputs'
  finiteness is never used. The kernel's idealization rewrote no operation, so there is nothing to
  preserve; the two kernel frames are the generated ones, and the reference's frame is its generated
  run with the result dropped.
-/
import proofs.«124602_j5403068859067_1_alg».proof.Defs
import proofs.«124602_j5403068859067_1_alg».proof.Proof.Gen.Kernel
import proofs.«124602_j5403068859067_1_alg».proof.Proof.Gen.Kernel.Skeleton
import proofs.«124602_j5403068859067_1_alg».proof.Proof.Gen.Kernel.Launch
import proofs.«124602_j5403068859067_1_alg».proof.Proof.Gen.Kernel.Points
import proofs.«124602_j5403068859067_1_alg».proof.Proof.Gen.Kernel.Frame
import proofs.«124602_j5403068859067_1_alg».proof.Proof.Gen.KernelIdeal
import proofs.«124602_j5403068859067_1_alg».proof.Proof.Gen.KernelIdeal.Skeleton
import proofs.«124602_j5403068859067_1_alg».proof.Proof.Gen.KernelIdeal.Launch
import proofs.«124602_j5403068859067_1_alg».proof.Proof.Gen.KernelIdeal.Points
import proofs.«124602_j5403068859067_1_alg».proof.Proof.Gen.KernelIdeal.Frame
import proofs.«124602_j5403068859067_1_alg».proof.Proof.Gen.ReferenceIdeal
import proofs.«124602_j5403068859067_1_alg».proof.Proof.Gen.Pre_finite_inputs
import proofs.«124602_j5403068859067_1_alg».proof.Proof.Gen.KernelIdeal.Value
import proofs.«124602_j5403068859067_1_alg».proof.Proof.Gen.ReferenceIdeal.Run
import proofs.«124602_j5403068859067_1_alg».proof.Proof.Gen.ReferenceIdeal.Read
import proofs.«124602_j5403068859067_1_alg».proof.Proof.EdgeMlp
import proofs.«124602_j5403068859067_1_alg».proof.Proof.BodyValue
import proofs.«124602_j5403068859067_1_alg».proof.Proof.ArrayValue
import proofs.«124602_j5403068859067_1_alg».proof.Proof.RefValue
import proofs.«124602_j5403068859067_1_alg».proof.Proof.EntryValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The result array of the arrays the kernel's region finds is the result array of the reference's
    stages of the same arguments. -/
theorem entryResult_eq (m : (ℓ : Loc Cert.KernelIdeal.nD Cert.KernelIdeal.τ Cert.KernelIdeal.sig) → Buf (Elt Ideal) ℓ)
    (c : Dev Cert.KernelIdeal.nD) :
    Cert.KernelIdeal.ArrayValue.entryResult m c
      = EdgeMlp.result
          (Cert.ReferenceIdeal.Read.val_main_v6 (F := Ideal) (m ((c : Thread Cert.KernelIdeal.nD Cert.KernelIdeal.τ).loc Cert.KernelIdeal.main_arg0)) (m ((c : Thread Cert.KernelIdeal.nD Cert.KernelIdeal.τ).loc Cert.KernelIdeal.main_arg4)))
          (Cert.ReferenceIdeal.Read.val_main_v13 (F := Ideal) (m ((c : Thread Cert.KernelIdeal.nD Cert.KernelIdeal.τ).loc Cert.KernelIdeal.main_arg1)) (m ((c : Thread Cert.KernelIdeal.nD Cert.KernelIdeal.τ).loc Cert.KernelIdeal.main_arg4)))
          (Cert.ReferenceIdeal.Read.val_main_v20 (F := Ideal) (m ((c : Thread Cert.KernelIdeal.nD Cert.KernelIdeal.τ).loc Cert.KernelIdeal.main_arg0)) (m ((c : Thread Cert.KernelIdeal.nD Cert.KernelIdeal.τ).loc Cert.KernelIdeal.main_arg3)))
          (Cert.ReferenceIdeal.Read.val_main_v27 (F := Ideal) (m ((c : Thread Cert.KernelIdeal.nD Cert.KernelIdeal.τ).loc Cert.KernelIdeal.main_arg1)) (m ((c : Thread Cert.KernelIdeal.nD Cert.KernelIdeal.τ).loc Cert.KernelIdeal.main_arg3)))
          (Cert.ReferenceIdeal.Read.val_main_v28 (F := Ideal) (m ((c : Thread Cert.KernelIdeal.nD Cert.KernelIdeal.τ).loc Cert.KernelIdeal.main_arg2)))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7))
          (m ((c : Thread Cert.KernelIdeal.nD Cert.KernelIdeal.τ).loc Cert.KernelIdeal.main_arg8)) := by
  unfold Cert.KernelIdeal.ArrayValue.entryResult
  rw [Cert.KernelIdeal.EntryValue.V_v6, Cert.KernelIdeal.EntryValue.V_v13, Cert.KernelIdeal.EntryValue.V_v20,
    Cert.KernelIdeal.EntryValue.V_v27, Cert.KernelIdeal.EntryValue.V_v28, Cert.KernelIdeal.Gen.V_main_arg5,
    Cert.KernelIdeal.Gen.V_main_arg6, Cert.KernelIdeal.Gen.V_main_arg7, Cert.KernelIdeal.Gen.V_main_arg8]

/-- Run from memories that agree on the arguments, both idealized programs end with the same result
    array, EdgeMlp.result of the gathered rows and the parameters. -/
theorem algebraic : Cert.algebraic_KernelIdeal_ReferenceIdeal := by
  intro m ρ m' ρ' _ hagree
  refine ⟨fun c => Cert.KernelIdeal.ArrayValue.entryResult m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v39_eq, Cert.ReferenceIdeal.RefValue.ref_eq, a0, a1, a2, a3, a4, a5, a6, a7, a8]
  exact (entryResult_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
